-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S11008x4096 : Shape := ⟨2, ![11008, 4096]⟩
abbrev S11008 : Shape := ⟨1, ![11008]⟩
abbrev S1x11008 : Shape := ⟨2, ![1, 11008]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S11008 : S_.BroadcastsInDim S11008 (![] : Fin 0 → Fin S11008.rank)
  reducesTo_S11008_S_d0 : S11008.ReducesTo [0] S_
  bcast_S_S1x11008 : S_.BroadcastsInDim S1x11008 (![] : Fin 0 → Fin S1x11008.rank)
  reducesTo_S1x11008_S_d0_1 : S1x11008.ReducesTo [0, 1] S_

variable [Facts]

def fn {F : FTy → Type} [FloatOps F] (main_arg0 : FVec F S4x2048x4096 .f32) (main_arg1 : IVec S11008x4096 32) (main_arg2 : FVec F S11008 .f32) (main_arg3 : FVec F S1x11008 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S11008 .f32 := Host.absf main_arg2
  let main_cst_0 : FVec F S_ .f32 := constant S_ .f32 0x7F800000#32
  let main_v5 : FVec F S11008 .f32 := broadcastInDim S11008 ![] bcast_S_S11008 main_cst_0
  let main_v6 : IVec S11008 1 := cmpf .olt main_v4 main_v5
  let main_c_1 : IVec S_ 1 := constantI S_ 1 1#1
  let main_v7 : IVec S_ 1 := (fun x v => Host.reduce IntOp.andi x v reducesTo_S11008_S_d0 h_S_) main_v6 main_c_1
  let main_v8 : IVec S_ 1 := andi main_v3 main_v7
  let main_v9 : FVec F S1x11008 .f32 := Host.absf main_arg3
  let main_cst_2 : FVec F S_ .f32 := constant S_ .f32 0x7F800000#32
  let main_v10 : FVec F S1x11008 .f32 := broadcastInDim S1x11008 ![] bcast_S_S1x11008 main_cst_2
  let main_v11 : IVec S1x11008 1 := cmpf .olt main_v9 main_v10
  let main_c_3 : IVec S_ 1 := constantI S_ 1 1#1
  let main_v12 : IVec S_ 1 := (fun x v => Host.reduce IntOp.andi x v reducesTo_S1x11008_S_d0_1 h_S_) main_v11 main_c_3
  let main_v13 : IVec S_ 1 := andi main_v8 main_v12
  main_v13
-- ==== Kernel.lean ====
abbrev S4x2048x4096 : Shape := ⟨3, ![4, 2048, 4096]⟩
abbrev S11008x4096 : Shape := ⟨2, ![11008, 4096]⟩
abbrev S11008 : Shape := ⟨1, ![11008]⟩
abbrev S1x11008 : Shape := ⟨2, ![1, 11008]⟩
abbrev S8192x4096 : Shape := ⟨2, ![8192, 4096]⟩
abbrev S8192x11008 : Shape := ⟨2, ![8192, 11008]⟩
abbrev S512x4096 : Shape := ⟨2, ![512, 4096]⟩
abbrev S256x4096 : Shape := ⟨2, ![256, 4096]⟩
abbrev S1x256 : Shape := ⟨2, ![1, 256]⟩
abbrev S512x256 : Shape := ⟨2, ![512, 256]⟩
abbrev S4x2048x11008 : Shape := ⟨3, ![4, 2048, 11008]⟩

abbrev nBuf : Space → Nat
  | .hbm => 8
  | .vmem => 10
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .i32⟩
  | .hbm, ⟨2, _⟩ => ⟨S11008, .f32⟩
  | .hbm, ⟨3, _⟩ => ⟨S1x11008, .f32⟩
  | .hbm, ⟨4, _⟩ => ⟨S8192x4096, .f32⟩
  | .hbm, ⟨5, _⟩ => ⟨S1x11008, .f32⟩
  | .hbm, ⟨6, _⟩ => ⟨S8192x11008, .f32⟩
  | .hbm, ⟨7, _⟩ => ⟨S4x2048x11008, .f32⟩
  | .local _ .vmem, ⟨0, _⟩ => ⟨S512x4096, .f32⟩
  | .local _ .vmem, ⟨1, _⟩ => ⟨S512x4096, .f32⟩
  | .local _ .vmem, ⟨2, _⟩ => ⟨S256x4096, .i32⟩
  | .local _ .vmem, ⟨3, _⟩ => ⟨S256x4096, .i32⟩
  | .local _ .vmem, ⟨4, _⟩ => ⟨S1x256, .f32⟩
  | .local _ .vmem, ⟨5, _⟩ => ⟨S1x256, .f32⟩
  | .local _ .vmem, ⟨6, _⟩ => ⟨S1x256, .f32⟩
  | .local _ .vmem, ⟨7, _⟩ => ⟨S1x256, .f32⟩
  | .local _ .vmem, ⟨8, _⟩ => ⟨S512x256, .f32⟩
  | .local _ .vmem, ⟨9, _⟩ => ⟨S512x256, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S4x2048x4096_S8192x4096 : S4x2048x4096.ShapeCasts S8192x4096
  shapeCasts_S11008_S1x11008 : S11008.ShapeCasts S1x11008
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  bitsLt_bf16_f32 : FTy.bits .bf16 < FTy.bits .f32
  inb_S256x4096_S256x4096_0_0 : ∀ a, (![0, 0] : Fin 2 → Nat) a + S256x4096.size a ≤ S256x4096.size a
  h_S256x4096 : 0 < S256x4096.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S512x256_S512x256_0_0 : ∀ a, (![0, 0] : Fin 2 → Nat) a + S512x256.size a ≤ S512x256.size a
  h_S512x256 : 0 < S512x256.numel
  shapeCasts_S8192x11008_S4x2048x11008 : S8192x11008.ShapeCasts S4x2048x11008
  dot_S512x4096_S256x4096_S512x256_1_1_0_0_n_n_wf : DotDims.WF S512x4096 S256x4096 S512x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S11008x4096.size a
  hwx0_1 : ∀ i : grid0.Coords, EltTy.bits .i32 = 32 ∨ (Rect.block (s := S11008x4096) S256x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x11008.size a
  hwx0_2 : ∀ i : grid0.Coords, EltTy.bits .f32 = 32 ∨ (Rect.block (s := S1x11008) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x11008.size a
  hwx0_3 : ∀ i : grid0.Coords, EltTy.bits .f32 = 32 ∨ (Rect.block (s := S1x11008) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x256.size a ≤ S8192x11008.size a
  hwx0_4 : ∀ i : grid0.Coords, EltTy.bits .f32 = 32 ∨ (Rect.block (s := S8192x11008) S512x256.size (cc0_transform_4 i) (hinb0_4 i)).WholeWords (EltTy.packing .f32)

variable [Facts₀]

def dot_S512x4096_S256x4096_S512x256_1_1_0_0_n_n : DotDims S512x4096 S256x4096 S512x256 where
  lhsContracting := [1]
  rhsContracting := [1]
  lhsNonContracting := [0]
  rhsNonContracting := [0]
  lhsBatch := []
  rhsBatch := []
  wf := dot_S512x4096_S256x4096_S512x256_1_1_0_0_n_n_wf

abbrev win0_0 : Pipeline.Window sig grid0 :=
  Pipeline.Window.ofSpec (Memref.whole main_v0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S512x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S11008x4096 : Shape := ⟨2, ![11008, 4096]⟩
abbrev S11008 : Shape := ⟨1, ![11008]⟩
abbrev S1x11008 : Shape := ⟨2, ![1, 11008]⟩
abbrev S4x2048x11008 : Shape := ⟨3, ![4, 2048, 11008]⟩
abbrev S1x1x11008 : Shape := ⟨3, ![1, 1, 11008]⟩

abbrev nBuf : Space → Nat
  | .hbm => 12
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .i32⟩
  | .hbm, ⟨2, _⟩ => ⟨S11008, .f32⟩
  | .hbm, ⟨3, _⟩ => ⟨S1x11008, .f32⟩
  | .hbm, ⟨4, _⟩ => ⟨S11008x4096, .f32⟩
  | .hbm, ⟨5, _⟩ => ⟨S4x2048x11008, .f32⟩
  | .hbm, ⟨6, _⟩ => ⟨S1x1x11008, .f32⟩
  | .hbm, ⟨7, _⟩ => ⟨S4x2048x11008, .f32⟩
  | .hbm, ⟨8, _⟩ => ⟨S4x2048x11008, .f32⟩
  | .hbm, ⟨9, _⟩ => ⟨S1x1x11008, .f32⟩
  | .hbm, ⟨10, _⟩ => ⟨S4x2048x11008, .f32⟩
  | .hbm, ⟨11, _⟩ => ⟨S4x2048x11008, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]

class Facts₀ : Prop where
  bcast_S11008_S1x1x11008_2 : S11008.BroadcastsInDim S1x1x11008 (![2] : Fin 1 → Fin S1x1x11008.rank)
  bcast_S1x1x11008_S4x2048x11008_0_1_2 : S1x1x11008.BroadcastsInDim S4x2048x11008 (![0, 1, 2] : Fin 3 → Fin S4x2048x11008.rank)
  bcast_S1x11008_S1x1x11008_1_2 : S1x11008.BroadcastsInDim S1x1x11008 (![1, 2] : Fin 2 → Fin S1x1x11008.rank)
  dot_S4x2048x4096_S11008x4096_S4x2048x11008_2_1_01_0_n_n_wf : DotDims.WF S4x2048x4096 S11008x4096 S4x2048x11008 [2] [1] [0, 1] [0] [] []

variable [Facts₀]

def dot_S4x2048x4096_S11008x4096_S4x2048x11008_2_1_01_0_n_n : DotDims S4x2048x4096 S11008x4096 S4x2048x11008 where
  lhsContracting := [2]
  rhsContracting := [1]
  lhsNonContracting := [0, 1]
  rhsNonContracting := [0]
  lhsBatch := []
  rhsBatch := []
  wf := dot_S4x2048x4096_S11008x4096_S4x2048x11008_2_1_01_0_n_n_wf

class Facts : Prop extends Facts₀ where

variable [Facts]
-- ==== Proof.Linear.lean ====
/-
  The quantised linear layer as ONE function of its four arrays, in two spellings, and the law that joins them.

  `layer x w s b` is the layer on activations `x` of shape [4, 2048, 4096]: at (p, r, o) the inner product of the
  activation row (p, r) with weight row `o` — each weight a 32-bit word read as a signed integer — scaled by `s o` and
  shifted by `b (0, o)`. `flat` is the same layer on the activations laid out as 8192 rows of 4096, with the scales as a
  one-row matrix. Row `p * 2048 + r` of the flat layout is row (p, r) of the stacked one, so recasting the flat result to
  [4, 2048, 11008] gives `layer` (`layer_of_flat`). No property of the numbers is used: both sides are the same sum of
  the same products.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Linear

open Idealize.ShloMosaic Idealize.ShloMosaic.ValueIdx

abbrev SX : Shape := ⟨3, ![4, 2048, 4096]⟩
abbrev SW : Shape := ⟨2, ![11008, 4096]⟩
abbrev SS : Shape := ⟨1, ![11008]⟩
abbrev SB : Shape := ⟨2, ![1, 11008]⟩
abbrev SY : Shape := ⟨3, ![4, 2048, 11008]⟩
abbrev SXf : Shape := ⟨2, ![8192, 4096]⟩
abbrev SYf : Shape := ⟨2, ![8192, 11008]⟩

/-- A weight word as the real number it denotes: the word read as a signed integer. -/
abbrev wt (b : BitVec 32) : EReal := ((b.toInt : ℝ) : EReal)

/-- The layer on flat activations: row `r` against weight row `o`, scaled and shifted per output channel. -/
def flat (x : SXf.Idx → EReal) (w : SW.Idx → BitVec 32) (s b : SB.Idx → EReal) : SYf.Idx → EReal :=
  fun j => (∑ k : Fin 4096, x (ix2 (j 0) k) * wt (w (ix2 (j 1) k))) * s (ix2 (0 : Fin 1) (j 1)) + b (ix2 (0 : Fin 1) (j 1))

/-- The layer on stacked activations. -/
def layer (x : SX.Idx → EReal) (w : SW.Idx → BitVec 32) (s : SS.Idx → EReal) (b : SB.Idx → EReal) : SY.Idx → EReal :=
  fun i => (∑ k : Fin 4096, x (ix3 (i 0) (i 1) k) * wt (w (ix2 (i 2) k))) * s (ix1 (i 2)) + b (ix2 (0 : Fin 1) (i 2))

/-- Row `p * 2048 + r` of the flat activations is row (p, r) of the stacked ones. -/
theorem flatten_apply (x : SX.Idx → EReal) (h : SX.ShapeCasts SXf) (p : Fin 4) (r : Fin 2048) (k : Fin 4096)
    (hm : p.val * 2048 + r.val < 8192) :
    shapeCast SXf x h (ix2 (⟨p.val * 2048 + r.val, hm⟩ : Fin 8192) k) = x (ix3 p r k) :=
  shapeCast_apply x h _ _ (by
    rw [Shape.rowMajor_val_two, Shape.rowMajor_val_three]
    rfl)

/-- The flat layer of the flattened activations, recast to the stacked shape, is the stacked layer. -/
theorem layer_of_flat (x : SX.Idx → EReal) (w : SW.Idx → BitVec 32) (s : SS.Idx → EReal) (b : SB.Idx → EReal)
    (h1 : SX.ShapeCasts SXf) (h2 : SS.ShapeCasts SB) (h3 : SYf.ShapeCasts SY) :
    shapeCast SY (flat (shapeCast SXf x h1) w (shapeCast SB s h2) b) h3 = layer x w s b := by
  funext i
  obtain ⟨p, r, o, rfl⟩ : ∃ (p : Fin 4) (r : Fin 2048) (o : Fin 11008), i = ix3 p r o := ⟨i 0, i 1, i 2, eq_ix3 i⟩
  have hm : p.val * 2048 + r.val < 8192 := by have := p.isLt; have := r.isLt; omega
  rw [shapeCast_apply _ h3 (ix3 p r o) (ix2 (⟨p.val * 2048 + r.val, hm⟩ : Fin 8192) o) (by
    rw [Shape.rowMajor_val_two, Shape.rowMajor_val_three]
    rfl)]
  show (∑ k : Fin 4096, shapeCast SXf x h1 (ix2 (⟨p.val * 2048 + r.val, hm⟩ : Fin 8192) k) * wt (w (ix2 o k)))
      * shapeCast SB s h2 (ix2 (0 : Fin 1) o) + b (ix2 (0 : Fin 1) o)
    = (∑ k : Fin 4096, x (ix3 p r k) * wt (w (ix2 o k))) * s (ix1 o) + b (ix2 (0 : Fin 1) o)
  rw [shapeCast_a_1a_apply s h2 (0 : Fin 1) o]
  simp only [flatten_apply x h1 p r _ hm]

end Cert.Linear

end
-- ==== Proof.Reference.lean ====
/-
  The reference computes the layer. Read one operation at a time at an index (p, r, o) of the result: the sum over
  the contracted axis of the activation at (p, r, k) times the converted weight at (o, k); the scale vector broadcast
  twice, read back at `o`; the bias row broadcast twice, read back at (0, o). The integer-to-float conversion of a weight
  word is, on the extended reals, the signed integer the word denotes. So the result is `Cert.Linear.layer` of the four
  arguments, term for term.
-/
import proofs.«144024_j14611478741502_1_alg».proof.Proof.Gen.ReferenceIdeal.Read
import proofs.«144024_j14611478741502_1_alg».proof.Proof.Linear

noncomputable section

open scoped BigOperators

namespace Cert.ReferenceIdeal.RefValue

open Cert.ReferenceIdeal Cert.ReferenceIdeal.Read Idealize.ShloMosaic Idealize.ShloMosaic.ValueIdx Cert.Linear

/-- The reference's result, as the run states it stage by stage, is the layer of its arguments. -/
theorem result_is_layer (x : SX.Idx → EReal) (w : SW.Idx → BitVec 32) (s : SS.Idx → EReal) (b : SB.Idx → EReal) :
    val_main_v7 (F := Ideal) x w s b = layer x w s b := by
  funext i
  obtain ⟨p, r, o, rfl⟩ : ∃ (p : Fin 4) (r : Fin 2048) (o : Fin 11008), i = ix3 p r o := ⟨i 0, i 1, i 2, eq_ix3 i⟩
  have el : ∀ k : Fin 4096, lidx_main_v1 (ix3 p r o) k = ix3 p r k := fun k =>
    funext fun a => by match a with | ⟨0, _⟩ => rfl | ⟨1, _⟩ => rfl | ⟨2, _⟩ => rfl
  have er : ∀ k : Fin 4096, ridx_main_v1 (ix3 p r o) k = ix2 o k := fun k =>
    funext fun a => by match a with | ⟨0, _⟩ => rfl | ⟨1, _⟩ => rfl
  have es : idx_main_v2 (idx_main_v3 (ix3 p r o)) = ix1 o :=
    funext fun a => by match a with | ⟨0, _⟩ => rfl
  have eb : idx_main_v5 (idx_main_v6 (ix3 p r o)) = ix2 (0 : Fin 1) o :=
    funext fun a => by match a with | ⟨0, _⟩ => rfl | ⟨1, _⟩ => rfl
  rw [val_main_v7_apply, val_main_v4_apply, val_main_v1_apply, val_main_v3_apply, val_main_v2_apply,
    val_main_v6_apply, val_main_v5_apply, es, eb]
  simp only [val_main_v0_apply, el, er]
  rfl

end Cert.ReferenceIdeal.RefValue

end
-- ==== Proof.LibContraction.lean ====
/-
  A contraction over ONE axis, with no batch axis and one free axis on each operand, read by coordinates.

  For dimension numbers `d` whose contracting lists are the singletons `[cl]` and `[cr]`, the contraction's index set
  is in bijection with `Fin n`, `n` the extent of the contracted axis (`contrFin`), so a sum over it is a sum over `Fin n`
  (`sum_contr`). At the contraction position that `i : Fin n` names, the left operand's index has `i` on its contracted
  axis and the result's first coordinate on its free axis; the right operand's has `i` on its contracted axis and the
  result's second coordinate on its free axis. Each of the four facts is stated of the coordinate's VALUE (a natural
  number), so that a proof at literal shapes finishes with `Fin.ext`.
-/
import Idealize.ShloMosaic.PureOps.Ideal.Laws
import Idealize.ShloMosaic.Lib.ValueIdx

noncomputable section

open scoped BigOperators

namespace Cert.Lib.Contraction

open Idealize.ShloMosaic Idealize.ShloMosaic.ValueIdx

variable {sl sr so : Shape} (d : DotDims sl sr so)

/-- One contracted axis: the contraction's shape has rank one. -/
theorem contr_rank {cl : Fin sl.rank} (hc : d.lhsContracting = [cl]) : d.contr.rank = 1 :=
  d.rank_contr.trans (by rw [hc]; rfl)

/-- Its one extent is the contracted axis's. -/
theorem contr_size {cl : Fin sl.rank} (hc : d.lhsContracting = [cl]) (n : Nat) (hn : sl.size cl = n) :
    d.contr.size ⟨0, by rw [contr_rank d hc]; exact Nat.one_pos⟩ = n := by
  have h := d.size_contr 0 (by rw [hc]; exact Nat.one_pos)
  rw [← hn]
  refine h.trans ?_
  simp [hc]

/-- The contraction's positions are the numbers below the contracted extent. -/
def contrFin {cl : Fin sl.rank} (hc : d.lhsContracting = [cl]) (n : Nat) (hn : sl.size cl = n) : d.contr.Idx ≃ Fin n :=
  contrEquiv1 d n (contr_rank d hc) (contr_size d hc n hn)

/-- A sum over the contraction's positions is the sum over those numbers. -/
theorem sum_contr {M : Type*} [AddCommMonoid M] {cl : Fin sl.rank} (hc : d.lhsContracting = [cl]) (n : Nat)
    (hn : sl.size cl = n) (f : d.contr.Idx → M) :
    ∑ k, f k = ∑ i : Fin n, f ((contrFin d hc n hn).symm i) :=
  (Equiv.sum_comp (contrFin d hc n hn).symm f).symm

/-- On its contracted axis the left operand's index is the position. -/
theorem lhs_contracted {cl : Fin sl.rank} (hc : d.lhsContracting = [cl]) (n : Nat) (hn : sl.size cl = n)
    (j : so.Idx) (i : Fin n) : (d.lhsIdx j ((contrFin d hc n hn).symm i) cl).val = i.val :=
  (d.lhsIdx_val_of_single hc j _).trans (contrEquiv1_symm_val d n (contr_rank d hc) (contr_size d hc n hn) i)

/-- On its contracted axis the right operand's index is the position. -/
theorem rhs_contracted {cl : Fin sl.rank} {cr : Fin sr.rank} (hc : d.lhsContracting = [cl]) (hc' : d.rhsContracting = [cr])
    (n : Nat) (hn : sl.size cl = n) (j : so.Idx) (i : Fin n) :
    (d.rhsIdx j ((contrFin d hc n hn).symm i) cr).val = i.val :=
  (d.rhsIdx_val_of_single hc' j _).trans (contrEquiv1_symm_val d n (contr_rank d hc) (contr_size d hc n hn) i)

/-- With no batch axis, the left operand's one free axis reads the result's first coordinate, at every position. -/
theorem lhs_free {nl : Fin sl.rank} (hb : d.lhsBatch = []) (hn : d.lhsNonContracting = [nl]) (j : so.Idx)
    (k : d.contr.Idx) (h0 : 0 < so.rank) : (d.lhsIdx j k nl).val = (j ⟨0, h0⟩).val := by
  have hnb : nl ∉ d.lhsBatch := by rw [hb]; exact List.not_mem_nil
  have hmem : nl ∈ d.lhsNonContracting := by rw [hn]; exact List.mem_singleton.mpr rfl
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis and one free axis on the left, the right operand's one free axis reads the result's second
    coordinate, at every position. -/
theorem rhs_free {nl : Fin sl.rank} {nr : Fin sr.rank} (hb : d.lhsBatch = []) (hb' : d.rhsBatch = [])
    (hn : d.lhsNonContracting = [nl]) (hn' : d.rhsNonContracting = [nr]) (j : so.Idx) (k : d.contr.Idx)
    (h1 : 1 < so.rank) : (d.rhsIdx j k nr).val = (j ⟨1, h1⟩).val := by
  have hnb : nr ∉ d.rhsBatch := by rw [hb']; exact List.not_mem_nil
  have hmem : nr ∈ d.rhsNonContracting := by rw [hn']; exact List.mem_singleton.mpr rfl
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn, hn'])

end Cert.Lib.Contraction

end
-- ==== Proof.Tile.lean ====
/-
  One tile of the kernel's result, entry by entry. The body multiplies a 512-row block of activations by a 256-row
  block of weight words (each word converted to the signed integer it denotes; the narrowing of the activations is the
  identity on extended reals) along their common axis of 4096, into a zero accumulator; multiplies column `q` of the
  product by the `q`-th scale; and adds the `q`-th bias. At (p, q) that is the inner product of activation row `p` with
  weight row `q`, times the scale at `q`, plus the bias at `q`.
-/
import proofs.«144024_j14611478741502_1_alg».proof.Proof.Gen.KernelIdeal.Skeleton
import proofs.«144024_j14611478741502_1_alg».proof.Proof.Linear
import proofs.«144024_j14611478741502_1_alg».proof.Proof.LibContraction

noncomputable section

open scoped BigOperators

namespace Cert.KernelIdeal.Tile

open Cert.KernelIdeal Cert.KernelIdeal.Gen Idealize.ShloMosaic Idealize.ShloMosaic.ValueIdx Cert.Linear Cert.Lib.Contraction

/-- The tile's contraction: axis 1 of both operands, rows of the left and rows of the right kept. -/
abbrev D : DotDims S512x4096 S256x4096 S512x256 := dot_S512x4096_S256x4096_S512x256_1_1_0_0_n_n

/-- The left operand is read on the result's row … -/
theorem lhs_row (j : S512x256.Idx) (k : D.contr.Idx) : (D.lhsIdx j k 0).val = (j 0).val :=
  lhs_free D rfl rfl j k (by decide)
/-- … and at the position along the contracted axis. -/
theorem lhs_pos (j : S512x256.Idx) (i : Fin 4096) : (D.lhsIdx j ((contrFin D rfl 4096 rfl).symm i) 1).val = i.val :=
  lhs_contracted D rfl 4096 rfl j i
/-- The right operand is read on the row the result's column names … -/
theorem rhs_row (j : S512x256.Idx) (k : D.contr.Idx) : (D.rhsIdx j k 0).val = (j 1).val :=
  rhs_free D rfl rfl rfl rfl j k (by decide)
/-- … and at the same position. -/
theorem rhs_pos (j : S512x256.Idx) (i : Fin 4096) : (D.rhsIdx j ((contrFin D rfl 4096 rfl).symm i) 1).val = i.val :=
  rhs_contracted D rfl rfl 4096 rfl j i

/-- The product into a zero accumulator at (p, q): row `p` of the left against row `q` of the right. -/
theorem product_apply (a : FVec Ideal S512x4096 .bf16) (b : FVec Ideal S256x4096 .bf16) (p : Fin 512) (q : Fin 256) :
    FloatOps.matmul D none a b (constant (F := Ideal) S512x256 .f32 0x00000000#32) (ix2 p q)
      = ∑ k : Fin 4096, a (ix2 p k) * b (ix2 q k) := by
  refine (Ideal.matmul_constant_zero_apply D none a b (ix2 p q)).trans ?_
  rw [sum_contr D rfl 4096 rfl]
  refine Finset.sum_congr rfl fun k _ => ?_
  have el : D.lhsIdx (ix2 p q) ((contrFin D rfl 4096 rfl).symm k) = ix2 p k := funext fun ax => Fin.ext (by
    match ax with
    | ⟨0, _⟩ => exact lhs_row _ _
    | ⟨1, _⟩ => exact lhs_pos _ _)
  have er : D.rhsIdx (ix2 p q) ((contrFin D rfl 4096 rfl).symm k) = ix2 q k := funext fun ax => Fin.ext (by
    match ax with
    | ⟨0, _⟩ => exact rhs_row _ _
    | ⟨1, _⟩ => exact rhs_pos _ _)
  rw [el, er]

/-- The body's stored tile at (p, q). -/
theorem tile_apply (x0 : Vec Ideal S512x4096 .f32) (x1 : Vec Ideal S256x4096 .i32) (x2 x3 : Vec Ideal S1x256 .f32)
    (p : Fin 512) (q : Fin 256) :
    k0_pay1 (F := Ideal) x0 x1 x2 x3 (ix2 p q)
      = (∑ k : Fin 4096, x0 (ix2 p k) * wt (x1 (ix2 q k))) * x2 (ix2 (0 : Fin 1) q) + x3 (ix2 (0 : Fin 1) q) := by
  unfold k0_pay1
  have h1 := product_apply (truncf .bf16 (shapeCast S512x4096 x0 shapeCasts_S512x4096_S512x4096) bitsLt_bf16_f32)
    (sitofp .bf16 x1) p q
  have h2 := broadcastTo_1b_ab_apply (shapeCast S1x256 x2 shapeCasts_S1x256_S1x256) broadcasts_S1x256_S512x256 p q
  have h3 := broadcastTo_1b_ab_apply x3 broadcasts_S1x256_S512x256 p q
  refine (congrArg₂ (· + ·) (congrArg₂ (· * ·) h1 h2) h3).trans ?_
  rw [shapeCast_self, shapeCast_self]
  rfl

/-- The tile computed from blocks of whole arrays is a block of the flat layer. If the activation block holds rows
    `bi * 512 + p` of `X`, the weight block rows `bj * 256 + q` of `W`, and the scale and bias blocks columns
    `bj * 256 + q` of `S` and `B`, then entry (p, q) of the tile is the flat layer at
    (`bi * 512 + p`, `bj * 256 + q`). -/
theorem tile_is_block (X : SXf.Idx → EReal) (W : SW.Idx → BitVec 32) (S B : SB.Idx → EReal)
    (x0 : Vec Ideal S512x4096 .f32) (x1 : Vec Ideal S256x4096 .i32) (x2 x3 : Vec Ideal S1x256 .f32)
    (bi bj : Nat) (p : Fin 512) (q : Fin 256) (hr : bi * 512 + p.val < 8192) (hc : bj * 256 + q.val < 11008)
    (h0 : ∀ k : Fin 4096, x0 (ix2 p k) = X (ix2 (⟨bi * 512 + p.val, hr⟩ : Fin 8192) k))
    (h1 : ∀ k : Fin 4096, x1 (ix2 q k) = W (ix2 (⟨bj * 256 + q.val, hc⟩ : Fin 11008) k))
    (h2 : x2 (ix2 (0 : Fin 1) q) = S (ix2 (0 : Fin 1) (⟨bj * 256 + q.val, hc⟩ : Fin 11008)))
    (h3 : x3 (ix2 (0 : Fin 1) q) = B (ix2 (0 : Fin 1) (⟨bj * 256 + q.val, hc⟩ : Fin 11008))) :
    k0_pay1 (F := Ideal) x0 x1 x2 x3 (ix2 p q)
      = flat X W S B (ix2 (⟨bi * 512 + p.val, hr⟩ : Fin 8192) (⟨bj * 256 + q.val, hc⟩ : Fin 11008)) := by
  rw [tile_apply, h2, h3]
  simp only [h0, h1]
  rfl

end Cert.KernelIdeal.Tile

end
-- ==== Proof.Whole.lean ====
/-
  From tiles to the whole array. The grid has 16 × 43 points; point (i, j) reads activation rows [512 i, 512 i + 512),
  weight rows [256 j, 256 j + 256), the scales and biases of those 256 channels, and writes back tile (i, j) of the
  result. Every tile is the matching block of the flat layer of the arrays as the region finds them, and the tiles
  cover the result array: row `r`, column `o` lies in tile (r / 512, o / 256). So the array ends holding the flat layer.
-/
import proofs.«144024_j14611478741502_1_alg».proof.Proof.Gen.KernelIdeal.Frame
import proofs.«144024_j14611478741502_1_alg».proof.Proof.Tile

set_option maxRecDepth 16384
-- one decision over the grid at a time
set_option Elab.async false

noncomputable section

open scoped BigOperators

namespace Cert.KernelIdeal.Whole

open Cert.KernelIdeal Cert.KernelIdeal.Gen Cert.KernelIdeal.Tile Idealize.ShloMosaic Idealize.ShloMosaic.TcCoe
  Idealize.ShloMosaic.ValueIdx Idealize.SL.Sem Cert.Linear

variable (m : (ℓ : Loc nD τ sig) → Buf (Elt Ideal) ℓ)

theorem zero_offsets : (![0, 0] : Fin 2 → Nat) = fun _ => 0 := funext fun a => by fin_cases a <;> rfl

/-- Which block of its array each window holds at point `t`, with i = t / 43 and j = t % 43 the result's tile: the
    activations' block is (i, 0), the weights' (j, 0), the scales' and the biases' (0, j). Decided over the grid. -/
theorem block_indices : ∀ t : Fin cfg0.N,
    win0_4.index t (0 : Fin 2) = t.val / 43 ∧ win0_4.index t (1 : Fin 2) = t.val % 43
    ∧ win0_0.index t (0 : Fin 2) = t.val / 43 ∧ win0_0.index t (1 : Fin 2) = 0
    ∧ win0_1.index t (0 : Fin 2) = t.val % 43 ∧ win0_1.index t (1 : Fin 2) = 0
    ∧ win0_2.index t (0 : Fin 2) = 0 ∧ win0_2.index t (1 : Fin 2) = t.val % 43
    ∧ win0_3.index t (0 : Fin 2) = 0 ∧ win0_3.index t (1 : Fin 2) = t.val % 43 :=
  (by decide +kernel : ∀ t : Fin grid0.N, _)

/-- The flat layer of the arrays as the region finds them. -/
abbrev found (c : Dev nD) : S8192x11008.Idx → EReal :=
  flat (V m c main_v0) (V m c main_arg1) (V m c main_v1) (V m c main_arg3)

/-- What point `t` writes back is block `t` of the flat layer. -/
theorem flushed_eq (c : Dev nD) (t : Fin cfg0.N) :
    (dats m 0 c).flushed 4 t = ((cfg0.win 4).blk t).view.read (Elt Ideal) (found m c) := by
  show (cfg0.win 4).cut (grid0.coords t) ((dats m 0 c).after 4 t) = _
  rw [after0_4]
  unfold out0_4
  rw [View.canon_unit_zero zero_offsets]
  simp only [View.ld_unit_zero (S := S512x4096) zero_offsets, View.ld_unit_zero (S := S256x4096) zero_offsets,
    View.ld_unit_zero (S := S1x256) zero_offsets]
  obtain ⟨e0, e1, e2, e3, e4, e5, e6, e7, e8, e9⟩ := block_indices t
  funext j
  obtain ⟨p, q, rfl⟩ : ∃ (p : Fin 512) (q : Fin 256), j = ix2 p q := ⟨j 0, j 1, eq_ix2 j⟩
  have hN : cfg0.N = 688 := N_0
  have ht : t.val < cfg0.N := t.isLt
  have hr : t.val / 43 * 512 + p.val < 8192 := by have := p.isLt; omega
  have hc : t.val % 43 * 256 + q.val < 11008 := by have := q.isLt; omega
  show k0_pay1 (F := Ideal) (iblk m c 0 t) (iblk m c 1 t) (iblk m c 2 t) (iblk m c 3 t) (ix2 p q)
    = found m c (((cfg0.win 4).blk t).view.emb (ix2 p q))
  have hidx : ((cfg0.win 4).blk t).view.emb (ix2 p q)
      = ix2 (⟨t.val / 43 * 512 + p.val, hr⟩ : Fin 8192) (⟨t.val % 43 * 256 + q.val, hc⟩ : Fin 11008) := by
    funext a; apply Fin.ext
    match a with
    | ⟨0, _⟩ => show win0_4.index t (0 : Fin 2) * 512 + 1 * p.val = t.val / 43 * 512 + p.val; omega
    | ⟨1, _⟩ => show win0_4.index t (1 : Fin 2) * 256 + 1 * q.val = t.val % 43 * 256 + q.val; omega
  rw [hidx]
  refine tile_is_block (V m c main_v0) (V m c main_arg1) (V m c main_v1) (V m c main_arg3)
    (iblk m c 0 t) (iblk m c 1 t) (iblk m c 2 t) (iblk m c 3 t) (t.val / 43) (t.val % 43) p q hr hc ?_ ?_ ?_ ?_
  · intro k
    show V m c main_v0 (((cfg0.win 0).blk t).view.emb (ix2 p k)) = _
    refine congrArg (V m c main_v0) (funext fun a => Fin.ext ?_)
    match a with
    | ⟨0, _⟩ => show win0_0.index t (0 : Fin 2) * 512 + 1 * p.val = t.val / 43 * 512 + p.val; omega
    | ⟨1, _⟩ => show win0_0.index t (1 : Fin 2) * 4096 + 1 * k.val = k.val; omega
  · intro k
    show V m c main_arg1 (((cfg0.win 1).blk t).view.emb (ix2 q k)) = _
    refine congrArg (V m c main_arg1) (funext fun a => Fin.ext ?_)
    match a with
    | ⟨0, _⟩ => show win0_1.index t (0 : Fin 2) * 256 + 1 * q.val = t.val % 43 * 256 + q.val; omega
    | ⟨1, _⟩ => show win0_1.index t (1 : Fin 2) * 4096 + 1 * k.val = k.val; omega
  · show V m c main_v1 (((cfg0.win 2).blk t).view.emb (ix2 (0 : Fin 1) q)) = _
    refine congrArg (V m c main_v1) (funext fun a => Fin.ext ?_)
    match a with
    | ⟨0, _⟩ => show win0_2.index t (0 : Fin 2) * 1 + 1 * 0 = 0; omega
    | ⟨1, _⟩ => show win0_2.index t (1 : Fin 2) * 256 + 1 * q.val = t.val % 43 * 256 + q.val; omega
  · show V m c main_arg3 (((cfg0.win 3).blk t).view.emb (ix2 (0 : Fin 1) q)) = _
    refine congrArg (V m c main_arg3) (funext fun a => Fin.ext ?_)
    match a with
    | ⟨0, _⟩ => show win0_3.index t (0 : Fin 2) * 1 + 1 * 0 = 0; omega
    | ⟨1, _⟩ => show win0_3.index t (1 : Fin 2) * 256 + 1 * q.val = t.val % 43 * 256 + q.val; omega

/-- An index of the result array is in point `t`'s tile iff each coordinate is in the tile's range on its axis. -/
theorem mem_tile (t : Fin cfg0.N) (i : S8192x11008.Idx) :
    i ∈ ((cfg0.win 4).blk t).view.set ↔ ∀ a : Fin 2, win0_4.index t a * S512x256.size a ≤ (i a).val
      ∧ (i a).val < win0_4.index t a * S512x256.size a + S512x256.size a := by
  show i ∈ ((View.whole main_v2).slice (win0_4.rect t)).set ↔ _
  rw [View.set_slice_whole, Rect.mem_set_unit]
  exact Iff.rfl

/-- The tiles cover the result: (r, o) lies in the tile of point (r / 512) * 43 + o / 256. -/
theorem covered (i : S8192x11008.Idx) :
    ∃ t : Fin cfg0.N, (cfg0.win 4).flush t = true ∧ i ∈ ((cfg0.win 4).blk t).view.set := by
  have hi0 : (i 0).val < 8192 := (i 0).isLt
  have hi1 : (i 1).val < 11008 := (i 1).isLt
  have hN : cfg0.N = 688 := N_0
  have hlt : (i 0).val / 512 * 43 + (i 1).val / 256 < cfg0.N := by omega
  obtain ⟨e0, e1, -⟩ := block_indices ⟨(i 0).val / 512 * 43 + (i 1).val / 256, hlt⟩
  refine ⟨⟨(i 0).val / 512 * 43 + (i 1).val / 256, hlt⟩, flush0_4 _, ?_⟩
  rw [mem_tile]
  intro a
  match a with
  | ⟨0, _⟩ =>
    show win0_4.index ⟨(i 0).val / 512 * 43 + (i 1).val / 256, hlt⟩ (0 : Fin 2) * 512 ≤ (i 0).val
      ∧ (i 0).val < win0_4.index ⟨(i 0).val / 512 * 43 + (i 1).val / 256, hlt⟩ (0 : Fin 2) * 512 + 512
    rw [e0]
    show ((i 0).val / 512 * 43 + (i 1).val / 256) / 43 * 512 ≤ (i 0).val
      ∧ (i 0).val < ((i 0).val / 512 * 43 + (i 1).val / 256) / 43 * 512 + 512
    omega
  | ⟨1, _⟩ =>
    show win0_4.index ⟨(i 0).val / 512 * 43 + (i 1).val / 256, hlt⟩ (1 : Fin 2) * 256 ≤ (i 1).val
      ∧ (i 1).val < win0_4.index ⟨(i 0).val / 512 * 43 + (i 1).val / 256, hlt⟩ (1 : Fin 2) * 256 + 256
    rw [e1]
    show ((i 0).val / 512 * 43 + (i 1).val / 256) % 43 * 256 ≤ (i 1).val
      ∧ (i 1).val < ((i 0).val / 512 * 43 + (i 1).val / 256) % 43 * 256 + 256
    omega

/-- The result array after the region is the flat layer of the arrays as the region finds them. -/
theorem final (c : Dev nD) : (dats m 0 c).arrAt 4 cfg0.N = found m c :=
  (dats m 0 c).arrAt_eq_of_cover 4 (found m c) (fun t _ => flushed_eq m c t) covered

end Cert.KernelIdeal.Whole

end
-- ==== Proof.Program.lean ====
/-
  The idealized kernel's program, end to end. Before the region the host lays the activations out flat (8192 rows)
  and the scales as a one-row matrix; the region leaves the flat layer of those arrays in its result; after the region
  the host recasts that result to [4, 2048, 11008]. Recasting the flat layer of the flattened activations is the stacked
  layer (`Cert.Linear.layer_of_flat`), so the program's result is the layer of its four arguments, and the arguments end
  as they began.
-/
import proofs.«144024_j14611478741502_1_alg».proof.Proof.Whole

noncomputable section

namespace Cert.KernelIdeal.Whole

open Cert.KernelIdeal Cert.KernelIdeal.Gen Idealize.ShloMosaic Idealize.ShloMosaic.TcCoe
  Idealize.ShloMosaic.ValueIdx Idealize.SL.Sem Cert.Linear

variable (m : (ℓ : Loc nD τ sig) → Buf (Elt Ideal) ℓ)

/-- The region finds the activations flattened … -/
theorem found_activations (c : Dev nD) :
    (V m c main_v0 : S8192x4096.Idx → EReal)
      = shapeCast S8192x4096 (m ((c : Thread nD τ).loc main_arg0)) shapeCasts_S4x2048x4096_S8192x4096 := by
  show StableHlo.after hostOps0 (fun b => m (c, b)) (Proc.devRef .tc main_v0) = _
  after_results
  rfl

/-- … and the scales as one row. -/
theorem found_scales (c : Dev nD) :
    (V m c main_v1 : S1x11008.Idx → EReal)
      = shapeCast S1x11008 (m ((c : Thread nD τ).loc main_arg2)) shapeCasts_S11008_S1x11008 := by
  show StableHlo.after hostOps0 (fun b => m (c, b)) (Proc.devRef .tc main_v1) = _
  after_results
  rfl

/-- The program's result: the region's array recast, which is the layer of the arguments. -/
theorem result (c : Dev nD) :
    Pipeline.afterTail₀ cfgs (dats m) 0 (V0 m) [hostOps1] c main_v3
      = layer (m ((c : Thread nD τ).loc main_arg0)) (m ((c : Thread nD τ).loc main_arg1))
          (m ((c : Thread nD τ).loc main_arg2)) (m ((c : Thread nD τ).loc main_arg3)) := by
  unfold Pipeline.afterTail₀
  show StableHlo.after hostOps1 _ (Proc.devRef .tc main_v3) = _
  after_results
  show shapeCast S4x2048x11008 (Pipeline.withArrays spec0 c (V0 m c) (fun w => (dats m 0 c).arrAt w cfg0.N)
      (Proc.devRef .tc (Pipeline.arrRef spec0 4))) shapeCasts_S8192x11008_S4x2048x11008 = _
  rw [Pipeline.withArrays_arr spec0 launch0.win.arr_inj c (V0 m c) _ 4, final m c]
  show shapeCast S4x2048x11008 (flat (V m c main_v0) (V m c main_arg1) (V m c main_v1) (V m c main_arg3))
      shapeCasts_S8192x11008_S4x2048x11008 = _
  rw [found_activations m c, found_scales m c, V_main_arg1 m c, V_main_arg3 m c]
  exact layer_of_flat _ _ _ _ _ _ _

/-- Every weakly fair execution of the idealized kernel's program ends with its result at the layer of the arguments
    and the arguments unchanged. -/
theorem run (ρ : Dev nD → PrngReg) :
    θ_run defs (onTc (τ := τ) (main (F := Ideal))) ⟨m, fun _ => 0, ρ⟩ (fun r => ∀ c : Dev nD,
      r.2.mem ((c.tc : Thread nD τ).loc main_v3)
        = layer (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v3 (Pipeline.mem_restRefs_of main_v3 (by decide) (by decide))).trans (result m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c)))⟩)
    (run_main m ρ)

end Cert.KernelIdeal.Whole

end
-- ==== Proof.lean ====
/-
  A linear layer with 8-bit-range weights kept in 32-bit words: for activations `x` of shape [4, 2048, 4096], weight
  words `w` of shape [11008, 4096], scales `s` of shape [11008] and a bias row `b` of shape [1, 11008], the result at
  (p, r, o) is  (Σₖ x[p, r, k] · int(w[o, k])) · s[o] + b[0, o].

  The kernel flattens the activations to 8192 rows, tiles the result 16 × 43 into blocks of 512 × 256, and at each tile
  multiplies a block of activation rows with a block of weight rows, scales the columns and adds the bias; the
  reference contracts the stacked activations with the converted weights in one product and broadcasts the scale
  and the bias over the leading axes. On the extended reals the narrowing of the activations is the identity and the
  conversion of a weight word to either float format is the signed integer the word denotes, so both programs
  compute the same sum of the same products at every index: no algebraic law beyond re-indexing is needed, and the
  finiteness of the inputs is never used.

  `Cert.Linear` states the layer in its stacked and its flat form and joins them; `Cert.KernelIdeal.Tile` reads one
  tile of the body entry by entry; `Cert.KernelIdeal.Whole` goes from tiles to the whole result array and through the
  program's recasts before and after the region; `Cert.ReferenceIdeal.RefValue` reads the reference.
-/
import proofs.«144024_j14611478741502_1_alg».proof.Defs
import proofs.«144024_j14611478741502_1_alg».proof.Proof.Gen.Kernel
import proofs.«144024_j14611478741502_1_alg».proof.Proof.Gen.Kernel.Skeleton
import proofs.«144024_j14611478741502_1_alg».proof.Proof.Gen.Kernel.Launch
import proofs.«144024_j14611478741502_1_alg».proof.Proof.Gen.Kernel.Points
import proofs.«144024_j14611478741502_1_alg».proof.Proof.Gen.Kernel.Frame
import proofs.«144024_j14611478741502_1_alg».proof.Proof.Gen.KernelIdeal
import proofs.«144024_j14611478741502_1_alg».proof.Proof.Gen.KernelIdeal.Skeleton
import proofs.«144024_j14611478741502_1_alg».proof.Proof.Gen.KernelIdeal.Launch
import proofs.«144024_j14611478741502_1_alg».proof.Proof.Gen.KernelIdeal.Points
import proofs.«144024_j14611478741502_1_alg».proof.Proof.Gen.KernelIdeal.Frame
import proofs.«144024_j14611478741502_1_alg».proof.Proof.Gen.ReferenceIdeal
import proofs.«144024_j14611478741502_1_alg».proof.Proof.Gen.Pre_finite_inputs
import proofs.«144024_j14611478741502_1_alg».proof.Proof.Gen.ReferenceIdeal.Run
import proofs.«144024_j14611478741502_1_alg».proof.Proof.Gen.ReferenceIdeal.Read
import proofs.«144024_j14611478741502_1_alg».proof.Proof.Reference
import proofs.«144024_j14611478741502_1_alg».proof.Proof.Program
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the four arguments, both programs end with the layer of those arguments in their
    result: the kernel's program by `Cert.KernelIdeal.Whole.run`, the reference by its run read stage by stage. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact (Cert.ReferenceIdeal.Read.val_main_v7_eq _ _ _ _).trans (Cert.ReferenceIdeal.RefValue.result_is_layer _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
